-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : IVec S512x11008 32) (main_arg2 : IVec S32x1376 32) (main_arg3 : FVec F S32x11008 .f32) (main_arg4 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S1x11008 : Shape := ⟨2, ![1, 11008]⟩
abbrev S8192x11008 : Shape := ⟨2, ![8192, 11008]⟩
abbrev S1024x4096 : Shape := ⟨2, ![1024, 4096]⟩
abbrev S512x256 : Shape := ⟨2, ![512, 256]⟩
abbrev S32x256 : Shape := ⟨2, ![32, 256]⟩
abbrev S1x256 : Shape := ⟨2, ![1, 256]⟩
abbrev S1024x256 : Shape := ⟨2, ![1024, 256]⟩
abbrev S128x256 : Shape := ⟨2, ![128, 256]⟩
abbrev S128x8x256 : Shape := ⟨3, ![128, 8, 256]⟩
abbrev S128x1x256 : Shape := ⟨3, ![128, 1, 256]⟩
abbrev S8x256 : Shape := ⟨2, ![8, 256]⟩
abbrev S8x128x256 : Shape := ⟨3, ![8, 128, 256]⟩
abbrev S8x1x256 : Shape := ⟨3, ![8, 1, 256]⟩
abbrev S1024x1024 : Shape := ⟨2, ![1024, 1024]⟩

abbrev nBuf : Space → Nat
  | .hbm => 28
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S32x1376x1, .i32⟩
  | .hbm, ⟨13, _⟩ => ⟨S1x1x8, .i32⟩
  | .hbm, ⟨14, _⟩ => ⟨S32x1376x8, .i32⟩
  | .hbm, ⟨15, _⟩ => ⟨S32x1376x8, .i32⟩
  | .hbm, ⟨16, _⟩ => ⟨S32x1376x8, .i32⟩
  | .hbm, ⟨17, _⟩ => ⟨S_, .i32⟩
  | .hbm, ⟨18, _⟩ => ⟨S32x1376x8, .i32⟩
  | .hbm, ⟨19, _⟩ => ⟨S32x1376x8, .i32⟩
  | .hbm, ⟨20, _⟩ => ⟨S32x11008, .i32⟩
  | .hbm, ⟨21, _⟩ => ⟨S32x11008, .f32⟩
  | .hbm, ⟨22, _⟩ => ⟨S_, .f32⟩
  | .hbm, ⟨23, _⟩ => ⟨S32x11008, .f32⟩
  | .hbm, ⟨24, _⟩ => ⟨S32x11008, .f32⟩
  | .hbm, ⟨25, _⟩ => ⟨S1x11008, .f32⟩
  | .hbm, ⟨26, _⟩ => ⟨S8192x4096, .bf16⟩
  | .hbm, ⟨27, _⟩ => ⟨S8192x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x256, .i32⟩
  | .local _ .vmem, ⟨3, _⟩ => ⟨S512x256, .i32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def k0_mult1 : BitVec 32 :=
  let c0_i32 : BitVec 32 := 0#32
  let c128_i32 : BitVec 32 := 128#32
  let v4 : BitVec 32 := Scalar.muli c0_i32 c128_i32
  v4
def k0_mult2 : BitVec 32 :=
  let c0_i32 : BitVec 32 := 0#32
  let c1024_i32 : BitVec 32 := 1024#32
  let v6 : BitVec 32 := Scalar.muli c0_i32 c1024_i32
  v6
def k0_mult3 : BitVec 32 :=
  let c0_i32 : BitVec 32 := 0#32
  let c8_i32 : BitVec 32 := 8#32
  let v8 : BitVec 32 := Scalar.muli c0_i32 c8_i32
  v8
def k0_off1 (c0_i32 : BitVec 32) : Fin 2 → Nat :=
  let c128_i32 : BitVec 32 := 128#32
  let v4 : BitVec 32 := Scalar.muli c0_i32 c128_i32
  let v5 : BitVec 32 := v4
  let v10 : Index := Scalar.indexCast v5
  let c0_1 : Index := 0#32
  ![v10.toNat, 0]
def k0_off2 (c0_i32 : BitVec 32) : Fin 2 → Nat :=
  let c8_i32 : BitVec 32 := 8#32
  let v8 : BitVec 32 := Scalar.muli c0_i32 c8_i32
  let v9 : BitVec 32 := v8
  let v24 : Index := Scalar.indexCast v9
  let c0_3 : Index := 0#32
  ![v24.toNat, 0]
def k0_off3 (c0_i32 : BitVec 32) : Fin 2 → Nat :=
  let c0_5 : Index := 0#32
  let c1024_i32 : BitVec 32 := 1024#32
  let v6 : BitVec 32 := Scalar.muli c0_i32 c1024_i32
  let v7 : BitVec 32 := v6
  let v38 : Index := Scalar.indexCast v7
  ![0, v38.toNat]
def k0_mult4 : BitVec 32 :=
  let c1_i32 : BitVec 32 := 1#32
  let c128_i32_11 : BitVec 32 := 128#32
  let v47 : BitVec 32 := Scalar.muli c1_i32 c128_i32_11
  v47
def k0_mult5 : BitVec 32 :=
  let c1_i32 : BitVec 32 := 1#32
  let c1024_i32_12 : BitVec 32 := 1024#32
  let v49 : BitVec 32 := Scalar.muli c1_i32 c1024_i32_12
  v49
def k0_mult6 : BitVec 32 :=
  let c1_i32 : BitVec 32 := 1#32
  let c8_i32_13 : BitVec 32 := 8#32
  let v51 : BitVec 32 := Scalar.muli c1_i32 c8_i32_13
  v51
def k0_mult7 : BitVec 32 :=
  let c2_i32 : BitVec 32 := 2#32
  let c128_i32_26 : BitVec 32 := 128#32
  let v90 : BitVec 32 := Scalar.muli c2_i32 c128_i32_26
  v90
def k0_mult8 : BitVec 32 :=
  let c2_i32 : BitVec 32 := 2#32
  let c1024_i32_27 : BitVec 32 := 1024#32
  let v92 : BitVec 32 := Scalar.muli c2_i32 c1024_i32_27
  v92
def k0_mult9 : BitVec 32 :=
  let c2_i32 : BitVec 32 := 2#32
  let c8_i32_28 : BitVec 32 := 8#32
  let v94 : BitVec 32 := Scalar.muli c2_i32 c8_i32_28
  v94
def k0_mult10 : BitVec 32 :=
  let c3_i32 : BitVec 32 := 3#32
  let c128_i32_41 : BitVec 32 := 128#32
  let v133 : BitVec 32 := Scalar.muli c3_i32 c128_i32_41
  v133
def k0_mult11 : BitVec 32 :=
  let c3_i32 : BitVec 32 := 3#32
  let c1024_i32_42 : BitVec 32 := 1024#32
  let v135 : BitVec 32 := Scalar.muli c3_i32 c1024_i32_42
  v135
def k0_mult12 : BitVec 32 :=
  let c3_i32 : BitVec 32 := 3#32
  let c8_i32_43 : BitVec 32 := 8#32
  let v137 : BitVec 32 := Scalar.muli c3_i32 c8_i32_43
  v137
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  shapeCasts_S11008_S1x11008 : S11008.ShapeCasts S1x11008
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S128x256 : 0 < S128x256.numel
  iota_S128x8x256_d1_w32 : S128x8x256.Iotas .tc 32 [1]
  shapeCasts_S128x256_S128x1x256 : S128x256.ShapeCasts S128x1x256
  broadcasts_S128x1x256_S128x8x256 : S128x1x256.Broadcasts S128x8x256
  shapeCasts_S128x8x256_S1024x256 : S128x8x256.ShapeCasts S1024x256
  h_S8x256 : 0 < S8x256.numel
  shapeCasts_S8x256_S8x256 : S8x256.ShapeCasts S8x256
  shapeCasts_S1024x256_S8x128x256 : S1024x256.ShapeCasts S8x128x256
  shapeCasts_S8x256_S8x1x256 : S8x256.ShapeCasts S8x1x256
  broadcasts_S8x1x256_S8x128x256 : S8x1x256.Broadcasts S8x128x256
  shapeCasts_S8x128x256_S1024x256 : S8x128x256.ShapeCasts S1024x256
  h_S1024x1024 : 0 < S1024x1024.numel
  shapeCasts_S1024x1024_S1024x1024 : S1024x1024.ShapeCasts S1024x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x1024_S1024x256_S1024x256_1_0_0_1_n_n_wf : DotDims.WF S1024x1024 S1024x256 S1024x256 [1] [0] [0] [1] [] []
  hrank0 : 0 < grid0.rank
  k0_mult1_dvd : 128 ∣ k0_mult1.toNat
  k0_mult2_dvd : 1024 ∣ k0_mult2.toNat
  k0_mult3_dvd : 8 ∣ k0_mult3.toNat
  k0_off1_inb : ∀ (r : Fin 4), ∀ a, (k0_off1 (BitVec.ofNat 32 r.val)) a + S128x256.size a ≤ S512x256.size a
  k0_off2_inb : ∀ (r : Fin 4), ∀ a, (k0_off2 (BitVec.ofNat 32 r.val)) a + S8x256.size a ≤ S32x256.size a
  k0_off3_inb : ∀ (r : Fin 4), ∀ a, (k0_off3 (BitVec.ofNat 32 r.val)) a + S1024x1024.size a ≤ S1024x4096.size a
  k0_mult4_dvd : 128 ∣ k0_mult4.toNat
  k0_mult5_dvd : 1024 ∣ k0_mult5.toNat
  k0_mult6_dvd : 8 ∣ k0_mult6.toNat
  k0_mult7_dvd : 128 ∣ k0_mult7.toNat
  k0_mult8_dvd : 1024 ∣ k0_mult8.toNat
  k0_mult9_dvd : 8 ∣ k0_mult9.toNat
  k0_mult10_dvd : 128 ∣ k0_mult10.toNat
  k0_mult11_dvd : 1024 ∣ k0_mult11.toNat
  k0_mult12_dvd : 8 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .f32 = 32 ∨ (Rect.block (s := S32x11008) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .f32 = 32 ∨ (Rect.block (s := S8192x11008) S1024x256.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v17) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S32x128x11008 : Shape := ⟨3, ![32, 128, 11008]⟩
abbrev S32x1x11008 : Shape := ⟨3, ![32, 1, 11008]⟩
abbrev S8192x11008 : Shape := ⟨2, ![8192, 11008]⟩
abbrev S1x11008 : Shape := ⟨2, ![1, 11008]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S512x1x11008, .i32⟩
  | .hbm, ⟨13, _⟩ => ⟨S1x8x1, .i32⟩
  | .hbm, ⟨14, _⟩ => ⟨S512x8x11008, .i32⟩
  | .hbm, ⟨15, _⟩ => ⟨S512x8x11008, .i32⟩
  | .hbm, ⟨16, _⟩ => ⟨S512x8x11008, .i32⟩
  | .hbm, ⟨17, _⟩ => ⟨S_, .i32⟩
  | .hbm, ⟨18, _⟩ => ⟨S512x8x11008, .i32⟩
  | .hbm, ⟨19, _⟩ => ⟨S512x8x11008, .i32⟩
  | .hbm, ⟨20, _⟩ => ⟨S4096x11008, .i32⟩
  | .hbm, ⟨21, _⟩ => ⟨S_, .i32⟩
  | .hbm, ⟨22, _⟩ => ⟨S4096x11008, .i32⟩
  | .hbm, ⟨23, _⟩ => ⟨S4096x11008, .i32⟩
  | .hbm, ⟨24, _⟩ => ⟨S32x1376x1, .i32⟩
  | .hbm, ⟨25, _⟩ => ⟨S1x1x8, .i32⟩
  | .hbm, ⟨26, _⟩ => ⟨S32x1376x8, .i32⟩
  | .hbm, ⟨27, _⟩ => ⟨S32x1376x8, .i32⟩
  | .hbm, ⟨28, _⟩ => ⟨S32x1376x8, .i32⟩
  | .hbm, ⟨29, _⟩ => ⟨S_, .i32⟩
  | .hbm, ⟨30, _⟩ => ⟨S32x1376x8, .i32⟩
  | .hbm, ⟨31, _⟩ => ⟨S32x1376x8, .i32⟩
  | .hbm, ⟨32, _⟩ => ⟨S32x11008, .i32⟩
  | .hbm, ⟨33, _⟩ => ⟨S_, .i32⟩
  | .hbm, ⟨34, _⟩ => ⟨S32x11008, .i32⟩
  | .hbm, ⟨35, _⟩ => ⟨S32x11008, .i32⟩
  | .hbm, ⟨36, _⟩ => ⟨S32x128x11008, .i32⟩
  | .hbm, ⟨37, _⟩ => ⟨S32x128x11008, .f32⟩
  | .hbm, ⟨38, _⟩ => ⟨S32x1x11008, .f32⟩
  | .hbm, ⟨39, _⟩ => ⟨S32x1x11008, .i32⟩
  | .hbm, ⟨40, _⟩ => ⟨S32x1x11008, .f32⟩
  | .hbm, ⟨41, _⟩ => ⟨S32x128x11008, .f32⟩
  | .hbm, ⟨42, _⟩ => ⟨S32x128x11008, .f32⟩
  | .hbm, ⟨43, _⟩ => ⟨S32x128x11008, .f32⟩
  | .hbm, ⟨44, _⟩ => ⟨S32x128x11008, .f32⟩
  | .hbm, ⟨45, _⟩ => ⟨S4096x11008, .f32⟩
  | .hbm, ⟨46, _⟩ => ⟨S8192x11008, .f32⟩
  | .hbm, ⟨47, _⟩ => ⟨S1x11008, .f32⟩
  | .hbm, ⟨48, _⟩ => ⟨S8192x11008, .f32⟩
  | .hbm, ⟨49, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S_S4096x11008 : S_.BroadcastsInDim S4096x11008 (![] : Fin 0 → Fin S4096x11008.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Nibble.lean ====
/-
  The arithmetic both programs share, stated once with no program in sight.

  A packed 32-bit word holds eight 4-bit fields. Field p of a word q is (q >> 4p) & 15, an integer in 0..15; the weight it
  stands for is that integer minus 8. One program subtracts the 8 after the integer has become a real number, the other before
  (as a 32-bit integer): since the field is at most 15, the integer subtraction does not wrap, and the two agree.

  The result, entry (r, n), is  sum over k < 4096 of x(r, k) * W(k, n)  plus bias(n), with
  W(k, n) = scale(k / 128, n) * (weight field (k % 8) of qweight(k / 8, n) - zero field (n % 8) of qzeros(k / 128, n / 8)).
  A sum over k < 4096 taken as four consecutive runs of 1024 is the same sum.
-/
import Idealize.ShloMosaic.PureOps.Ideal
import Idealize.ShloMosaic.Lib.ValueIdx
import Idealize.ShloMosaic.Lib.KernelVsHost

noncomputable section

open scoped BigOperators

namespace Cert.Quant

open Idealize.ShloMosaic Idealize.ShloMosaic.ValueIdx

/-- The shift amount of field p: 4p, as a 32-bit word. -/
def shiftOf (p : ℕ) : BitVec 32 := IntOp.muli (BitVec.ofNat 32 p) 4#32

/-- Field p of the packed word q: (q >> 4p) & 15. -/
def nib (q : BitVec 32) (p : ℕ) : BitVec 32 := IntOp.andi (IntOp.shrsi .vector q (shiftOf p)) 15#32

/-- The shift amount spelt the other way round, 0 + 4 * p. -/
theorem shiftOf_host (p : ℕ) : IntOp.addi 0#32 (IntOp.muli 4#32 (BitVec.ofNat 32 p)) = shiftOf p := by
  unfold shiftOf IntOp.addi IntOp.muli
  rw [BitVec.zero_add, BitVec.mul_comm]

/-- The float literal 8.0 is the real number 8. -/
theorem ofBits_eight : Ideal.ofBits .f32 0x41000000#32 = ((8 : ℝ) : EReal) := by
  simp [Ideal.ofBits, Ideal.ieee, -EReal.coe_mul]; norm_num

/-- A word masked with 15, minus 8 as 32-bit integers, read signed: the masked word read signed, minus 8. -/
theorem toInt_and15_sub8 (y : BitVec 32) :
    (IntOp.subi (IntOp.andi y 15#32) 8#32).toInt = (IntOp.andi y 15#32).toInt - 8 := by
  unfold IntOp.subi IntOp.andi
  have h : (y &&& 15#32).toNat ≤ 15 := by
    rw [BitVec.toNat_and]; exact Nat.and_le_right
  rw [BitVec.toInt_eq_toNat_cond, BitVec.toInt_eq_toNat_cond, BitVec.toNat_sub]
  have h8 : (8#32 : BitVec 32).toNat = 8 := rfl
  rw [h8]
  split <;> split <;> omega

/-- The weight a field stands for: the field as a real number, minus 8.0. -/
def fieldVal (q : BitVec 32) (p : ℕ) : EReal :=
  (((nib q p).toInt : ℝ) : EReal) - Ideal.ofBits .f32 0x41000000#32

/-- Subtracting 8 before the conversion gives the same weight. -/
theorem fieldVal_int (q : BitVec 32) (p : ℕ) :
    ((((IntOp.subi (nib q p) 8#32).toInt : ℤ) : ℝ) : EReal) = fieldVal q p := by
  unfold fieldVal nib
  rw [toInt_and15_sub8, ofBits_eight, ← EReal.coe_sub]
  push_cast
  rfl

end Cert.Quant

end
-- ==== Proof.Spec.lean ====
/-
  The result both programs compute, as ONE function of the arrays, entry by entry.

  qmm at (r, n):  (sum over k < 4096 of x(r, k) * (scale(k / 128, n) * (weight(k, n) - zero(k / 128, n))))  +  bias(0, n),
  where weight(k, n) is field (k % 8) of the packed word qweight(k / 8, n), minus 8, and zero(g, n) is an array of reals
  (the zero points, already unpacked). It is stated for any number of rows R and columns N, so that the same definition
  reads a 1024 x 256 block from block operands and the whole 8192 x 11008 result from whole arrays.

  unpackZeros lays the zero points out: entry (g, n) is field (n % 8) of qzeros(g, n / 8), minus 8; asRow lays the bias out as
  one row. result is qmm of the five argument arrays through those two.

  sum_chunks: a sum over k < 4096 is the sum of its four consecutive runs of 1024 (addition of extended reals is
  commutative and associative, which is all this needs).
-/
import proofs.«406074_j69647189672510_3_alg».proof.Proof.Nibble
import Mathlib.Algebra.BigOperators.Fin

noncomputable section

open scoped BigOperators

namespace Cert.Quant

open Idealize.ShloMosaic Idealize.ShloMosaic.ValueIdx

/-- The scale group of row k of the weight matrix: k / 128. -/
def grp (k : Fin 4096) : Fin 32 := ⟨k.val / 128, by have := k.isLt; omega⟩

/-- The packed word that holds row k: k / 8. -/
def wrd (k : Fin 4096) : Fin 512 := ⟨k.val / 8, by have := k.isLt; omega⟩

/-- The packed zero-point word that holds column n: n / 8. -/
def zwd (n : Fin 11008) : Fin 1376 := ⟨n.val / 8, by have := n.isLt; omega⟩

/-- The dequantized weight at (k, n). -/
def wgt {N : ℕ} (qw : (⟨2, ![512, N]⟩ : Shape).Idx → BitVec 32) (z sc : (⟨2, ![32, N]⟩ : Shape).Idx → EReal)
    (k : Fin 4096) (n : Fin N) : EReal :=
  sc (ix2 (grp k) n) * (fieldVal (qw (ix2 (wrd k) n)) (k.val % 8) - z (ix2 (grp k) n))

/-- Entry (r, n) of x times the dequantized weights, plus the bias row. -/
def qmm (R N : ℕ) (x : (⟨2, ![R, 4096]⟩ : Shape).Idx → EReal) (qw : (⟨2, ![512, N]⟩ : Shape).Idx → BitVec 32)
    (z sc : (⟨2, ![32, N]⟩ : Shape).Idx → EReal) (b : (⟨2, ![1, N]⟩ : Shape).Idx → EReal) (r : Fin R) (n : Fin N) : EReal :=
  (∑ k : Fin 4096, x (ix2 r k) * wgt qw z sc k n) + b (ix2 0 n)

/-- The zero points unpacked: entry (g, n) is field (n % 8) of word (g, n / 8), minus 8. -/
def unpackZeros (qz : (⟨2, ![32, 1376]⟩ : Shape).Idx → BitVec 32) : (⟨2, ![32, 11008]⟩ : Shape).Idx → EReal :=
  fun j => fieldVal (qz (ix2 (j 0) (zwd (j 1)))) ((j 1).val % 8)

/-- The bias as one row. -/
def asRow (b : (⟨1, ![11008]⟩ : Shape).Idx → EReal) : (⟨2, ![1, 11008]⟩ : Shape).Idx → EReal := fun j => b (ix1 (j 1))

/-- The whole result array as a function of the five arguments. -/
def result (x : (⟨2, ![8192, 4096]⟩ : Shape).Idx → EReal) (qw : (⟨2, ![512, 11008]⟩ : Shape).Idx → BitVec 32)
    (qz : (⟨2, ![32, 1376]⟩ : Shape).Idx → BitVec 32) (sc : (⟨2, ![32, 11008]⟩ : Shape).Idx → EReal)
    (b : (⟨1, ![11008]⟩ : Shape).Idx → EReal) : (⟨2, ![8192, 11008]⟩ : Shape).Idx → EReal :=
  fun i => qmm 8192 11008 x qw (unpackZeros qz) sc (asRow b) (i 0) (i 1)

/-- A sum over k < 4096 as four consecutive runs of 1024. -/
theorem sum_chunks {M : Type*} [AddCommMonoid M] (f : Fin 4096 → M) :
    ∑ k, f k = ∑ c : Fin 4, ∑ kk : Fin 1024, f ⟨1024 * c.val + kk.val, by have := c.isLt; have := kk.isLt; omega⟩ := by
  rw [← Equiv.sum_comp (finProdFinEquiv (m := 4) (n := 1024)) f, Fintype.sum_prod_type]
  refine Finset.sum_congr rfl fun c _ => Finset.sum_congr rfl fun kk _ => congrArg f (Fin.ext ?_)
  show kk.val + 1024 * c.val = 1024 * c.val + kk.val
  omega

/-- The same with the four runs written out, starting from zero as an accumulator does. -/
theorem sum_chunks_acc (f : Fin 4096 → EReal) :
    ((((0 + ∑ kk : Fin 1024, f ⟨kk.val, by have := kk.isLt; omega⟩)
        + ∑ kk : Fin 1024, f ⟨1024 + kk.val, by have := kk.isLt; omega⟩)
        + ∑ kk : Fin 1024, f ⟨2048 + kk.val, by have := kk.isLt; omega⟩)
        + ∑ kk : Fin 1024, f ⟨3072 + kk.val, by have := kk.isLt; omega⟩) = ∑ k, f k := by
  rw [sum_chunks f, Fin.sum_univ_four, zero_add]
  refine congrArg₂ (· + ·) (congrArg₂ (· + ·) (congrArg₂ (· + ·) ?_ ?_) ?_) ?_ <;>
    exact Finset.sum_congr rfl fun kk _ => congrArg f (Fin.ext (by simp))

end Cert.Quant

end
-- ==== Proof.LibCast3.lean ====
/-
  Four re-layouts of rank-2 and rank-3 arrays read at an entry, over coordinates (general: any sizes a, b, c).

  An [a, b, c] array and an [a*b, c] array hold the same entries in the same row-major order: row kk of the second is
  (kk / b, kk % b) of the first, and (g, r) of the first is row g*b + r of the second. An [a, c] array seen as [a, 1, c] keeps
  its entries; an [a, 1, c] array spread along the middle axis to [a, b, c] repeats entry (g, 0, n) at every (g, r, n).
-/
import Idealize.ShloMosaic.Lib.ValueIdx
import Idealize.ShloMosaic.Lib.ValueLayout
import Idealize.ShloMosaic.Lib.Pipeline.Value

noncomputable section

namespace Cert.LibCast3

open Idealize.ShloMosaic Idealize.ShloMosaic.ValueIdx

variable {α : Type}

/-- [a, b, c] seen as [m, c] with m = a * b: row kk is (kk / b, kk % b). -/
theorem cast_abc_mc {a b c m : ℕ} (hm : m = a * b) (hb : 0 < b) (x : (⟨3, ![a, b, c]⟩ : Shape).Idx → α)
    (h : (⟨3, ![a, b, c]⟩ : Shape).ShapeCasts ⟨2, ![m, c]⟩) (kk : Fin m) (n : Fin c) :
    shapeCast ⟨2, ![m, c]⟩ x h (ix2 kk n)
      = x (ix3 (⟨kk.val / b, Nat.div_lt_of_lt_mul (lt_of_lt_of_eq kk.isLt (hm.trans (Nat.mul_comm a b)))⟩ : Fin a)
            (⟨kk.val % b, Nat.mod_lt _ hb⟩ : Fin b) n) :=
  shapeCast_apply x h _ _ (by
    rw [Shape.rowMajor_val_three, Shape.rowMajor_val_two]
    show (kk.val / b * b + kk.val % b) * c + n.val = kk.val * c + n.val
    rw [Nat.div_add_mod'])

/-- [m, c] seen as [a, b, c] with m = a * b: (g, r) is row g * b + r. -/
theorem cast_mc_abc {a b c m : ℕ} (hm : m = a * b) (x : (⟨2, ![m, c]⟩ : Shape).Idx → α)
    (h : (⟨2, ![m, c]⟩ : Shape).ShapeCasts ⟨3, ![a, b, c]⟩) (g : Fin a) (r : Fin b) (n : Fin c) :
    shapeCast ⟨3, ![a, b, c]⟩ x h (ix3 g r n)
      = x (ix2 (⟨g.val * b + r.val, by
            have hg := g.isLt; have hr := r.isLt; rw [hm]
            calc g.val * b + r.val < g.val * b + b := by omega
              _ = (g.val + 1) * b := by rw [Nat.add_mul, Nat.one_mul]
              _ ≤ a * b := Nat.mul_le_mul_right b hg⟩ : Fin m) n) :=
  shapeCast_apply x h _ _ (by
    rw [Shape.rowMajor_val_three, Shape.rowMajor_val_two]
    rfl)

/-- [a, c] seen as [a, 1, c] keeps its entries. -/
theorem cast_ac_a1c {a c : ℕ} (x : (⟨2, ![a, c]⟩ : Shape).Idx → α)
    (h : (⟨2, ![a, c]⟩ : Shape).ShapeCasts ⟨3, ![a, 1, c]⟩) (g : Fin a) (u : Fin 1) (n : Fin c) :
    shapeCast ⟨3, ![a, 1, c]⟩ x h (ix3 g u n) = x (ix2 g n) :=
  shapeCast_apply x h _ _ (by
    have hu : u.val = 0 := by omega
    rw [Shape.rowMajor_val_three, Shape.rowMajor_val_two]
    show g.val * c + n.val = (g.val * 1 + u.val) * c + n.val
    rw [hu, Nat.mul_one, Nat.add_zero])

/-- [a, 1, c] spread to [a, b, c] repeats (g, 0, n) along the middle axis. -/
theorem bcast_a1c_abc {a b c : ℕ} (hc : c ≠ 1) (ha : a ≠ 1) (v : (⟨3, ![a, 1, c]⟩ : Shape).Idx → α)
    (h : (⟨3, ![a, 1, c]⟩ : Shape).Broadcasts ⟨3, ![a, b, c]⟩) (g : Fin a) (r : Fin b) (n : Fin c) :
    broadcastTo ⟨3, ![a, b, c]⟩ v h (ix3 g r n) = v (ix3 g (0 : Fin 1) n) := by
  refine broadcastTo_apply v h (ix3 g r n) (ix3 g (0 : Fin 1) n) fun ax => ?_
  match ax with
  | ⟨0, _⟩ =>
    show g.val = if a = 1 then 0 else g.val
    rw [if_neg ha]
  | ⟨1, _⟩ => rfl
  | ⟨2, _⟩ =>
    show n.val = if c = 1 then 0 else n.val
    rw [if_neg hc]

end Cert.LibCast3

end
-- ==== Proof.LibDot.lean ====
/-
  A plain matrix product read at an entry, at the ideal instance, over ANY dimension-number record whose fields are
  the plain ones ([1] x [0] contracted, [0] and [1] kept, no batch axes): the kernel's matmul into a zero accumulator and
  the host's dot_general are both the sum over k of a(r, k) * b(k, c), with k ranging over Fin K.

  eq_plain: a record with the plain fields IS DotDims.plain (the well-formedness proof is a proposition).
  plain_sum: the contraction sum of the plain record, re-indexed through its one coordinate.
  matmul_zero_at / dotGeneral_at: the two products at (r, c); kmatmul_at / hdot_at: the same over the printed spellings.
-/
import Idealize.ShloMosaic.Lib.ValueIdx
import Idealize.ShloMosaic.PureOps.Ideal.Laws

noncomputable section

open scoped BigOperators

namespace Cert.LibDot

open Idealize.ShloMosaic Idealize.ShloMosaic.ValueIdx

variable {M K N : Nat}

/-- A record whose six lists are the plain ones is the plain record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

theorem plain_rank : (DotDims.plain M K N).contr.rank = 1 := rfl

theorem plain_size : (DotDims.plain M K N).contr.size ⟨0, by rw [plain_rank]; exact Nat.one_pos⟩ = K := rfl

/-- The left operand's index at output (r, c) and contraction position k is (r, k). -/
theorem plain_lhsIdx (r : Fin M) (c : Fin N) (k : Fin K) :
    (DotDims.plain M K N).lhsIdx (ix2 r c) ((contrEquiv1 (DotDims.plain M K N) K plain_rank plain_size).symm k) = ix2 r k := by
  funext ax
  apply Fin.ext
  match ax with
  | ⟨0, _⟩ => rfl
  | ⟨1, _⟩ =>
    exact ((DotDims.plain M K N).lhsIdx_val_of_single (cl := 1) rfl _ _).trans
      (contrEquiv1_symm_val (DotDims.plain M K N) K plain_rank plain_size k)

/-- The right operand's index at output (r, c) and contraction position k is (k, c). -/
theorem plain_rhsIdx (r : Fin M) (c : Fin N) (k : Fin K) :
    (DotDims.plain M K N).rhsIdx (ix2 r c) ((contrEquiv1 (DotDims.plain M K N) K plain_rank plain_size).symm k) = ix2 k c := by
  funext ax
  apply Fin.ext
  match ax with
  | ⟨0, _⟩ =>
    exact ((DotDims.plain M K N).rhsIdx_val_of_single (cr := 0) rfl _ _).trans
      (contrEquiv1_symm_val (DotDims.plain M K N) K plain_rank plain_size k)
  | ⟨1, _⟩ => rfl

/-- The plain record's contraction sum at (r, c) is the sum over k : Fin K of a(r, k) * b(k, c). -/
theorem plain_sum {φ₁ φ₂ : FTy} (a : FVec Ideal ⟨2, ![M, K]⟩ φ₁) (b : FVec Ideal ⟨2, ![K, N]⟩ φ₂) (r : Fin M) (c : Fin N) :
    (∑ k : (DotDims.plain M K N).contr.Idx,
        a ((DotDims.plain M K N).lhsIdx (ix2 r c) k) * b ((DotDims.plain M K N).rhsIdx (ix2 r c) k) : EReal)
      = ∑ k : Fin K, a (ix2 r k) * b (ix2 k c) := by
  rw [← Equiv.sum_comp (contrEquiv1 (DotDims.plain M K N) K plain_rank plain_size).symm]
  refine Finset.sum_congr rfl fun k _ => ?_
  rw [plain_lhsIdx, plain_rhsIdx]

/-- The kernel's matrix product into a zero accumulator, at (r, c). -/
theorem matmul_zero_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    FloatOps.matmul d prec a b (constant ⟨2, ![M, N]⟩ .f32 0x00000000#32) (ix2 r c) = ∑ k : Fin K, a (ix2 r k) * b (ix2 k c) := by
  subst hd
  rw [Ideal.matmul_constant_zero_apply]
  exact plain_sum a b r c

/-- The host's dot_general, at (r, c). -/
theorem dotGeneral_at {φ₁ φ₂ : FTy} (d : DotDims ⟨2, ![M, K]⟩ ⟨2, ![K, N]⟩ ⟨2, ![M, N]⟩) (hd : d = DotDims.plain M K N)
    (prec : Option ContractPrecision) (sched : HostSchedule) (a : FVec Ideal ⟨2, ![M, K]⟩ φ₁) (b : FVec Ideal ⟨2, ![K, N]⟩ φ₂)
    (r : Fin M) (c : Fin N) :
    FloatOps.dotGeneral d prec sched a b (ix2 r c) = ∑ k : Fin K, a (ix2 r k) * b (ix2 k c) := by
  subst hd
  rw [Ideal.dotGeneral_apply]
  exact plain_sum a b r c

/-- The same, spelt with the kernel's vector operation. -/
theorem kmatmul_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    matmul d prec a b (constant ⟨2, ![M, N]⟩ .f32 0x00000000#32) (ix2 r c) = ∑ k : Fin K, a (ix2 r k) * b (ix2 k c) :=
  matmul_zero_at d hd prec a b r c

/-- The same, spelt with the host's operation. -/
theorem hdot_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    Host.dotGeneral d prec a b (ix2 r c) = ∑ k : Fin K, a (ix2 r k) * b (ix2 k c) :=
  dotGeneral_at d hd prec _ a b r c

end Cert.LibDot

end
-- ==== Proof.KernelBody.lean ====
/-
  The kernel body's arithmetic, read at one entry of a 1024 x 256 block, over the extended reals.

  unpack_at: a 128 x 256 tile of packed words, each spread over eight rows (row kk holds field kk % 8 of word kk / 8), turned
  into reals and lowered by 8: entry (kk, n) is the weight that field stands for.
  dequant_at: the unpacked tile seen as 8 groups of 128 rows, each group with its own row of zero points and of scales:
  entry (kk, n) is scale(kk / 128, n) * (weight(kk, n) - zero(kk / 128, n)). The change to a 16-bit float format is the identity.
  accum_at: an accumulator plus a 1024-long matrix product into zero: entry (r, n) is acc(r, n) + sum over kk of x(r, kk) * w(kk, n).
  finish_at: the accumulator plus the bias row spread over the rows. zero_at: the accumulator starts at 0.
  The four copies of the unpack-and-dequantize step and of the accumulate step are the same functions.
-/
import proofs.«406074_j69647189672510_3_alg».proof.Proof.Gen.KernelIdeal.Skeleton
import proofs.«406074_j69647189672510_3_alg».proof.Proof.Spec
import proofs.«406074_j69647189672510_3_alg».proof.Proof.LibCast3
import proofs.«406074_j69647189672510_3_alg».proof.Proof.LibDot
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Cert.Quant Cert.LibCast3 Idealize.ShloMosaic Idealize.ShloMosaic.ValueIdx

/-- Row kk of the 1024-row tile lies in group kk / 128. -/
def g8 (kk : Fin 1024) : Fin 8 := ⟨kk.val / 128, by have := kk.isLt; omega⟩
/-- Row kk of the 1024-row tile is unpacked from word kk / 8. -/
def w128 (kk : Fin 1024) : Fin 128 := ⟨kk.val / 8, by have := kk.isLt; omega⟩

/-- The unpacked, lowered weights at (kk, n). -/
theorem unpack_at (qw : Vec Ideal S128x256 .i32) (kk : Fin 1024) (n : Fin 256) :
    (subf (sitofp (F := Ideal) .f32 (shapeCast S1024x256 (andi (shrsi (broadcastTo S128x8x256 (shapeCast S128x1x256 qw shapeCasts_S128x256_S128x1x256) broadcasts_S128x1x256_S128x8x256)
        (muli (iota .tc S128x8x256 32 [1] iota_S128x8x256_d1_w32) (broadcast S128x8x256 4#32))) (broadcast S128x8x256 15#32)) shapeCasts_S128x8x256_S1024x256))
      (broadcast S1024x256 (Scalar.ofBits (F := Ideal) .f32 0x41000000#32))) (ix2 kk n)
      = fieldVal (qw (ix2 (w128 kk) n)) (kk.val % 8) := by
  show ((((shapeCast S1024x256 (andi (shrsi (broadcastTo S128x8x256 (shapeCast S128x1x256 qw shapeCasts_S128x256_S128x1x256) broadcasts_S128x1x256_S128x8x256)
        (muli (iota .tc S128x8x256 32 [1] iota_S128x8x256_d1_w32) (broadcast S128x8x256 4#32))) (broadcast S128x8x256 15#32)) shapeCasts_S128x8x256_S1024x256) (ix2 kk n)).toInt : ℝ) : EReal)
      - Ideal.ofBits .f32 0x41000000#32 = _
  rw [cast_abc_mc (a := 128) (b := 8) (c := 256) (m := 1024) rfl (by decide) _ shapeCasts_S128x8x256_S1024x256 kk n]
  show (((IntOp.andi (IntOp.shrsi .vector
        (broadcastTo S128x8x256 (shapeCast S128x1x256 qw shapeCasts_S128x256_S128x1x256) broadcasts_S128x1x256_S128x8x256 (ix3 (⟨kk.val / 8, _⟩ : Fin 128) (⟨kk.val % 8, _⟩ : Fin 8) n))
        (IntOp.muli (iota .tc S128x8x256 32 [1] iota_S128x8x256_d1_w32 (ix3 (⟨kk.val / 8, _⟩ : Fin 128) (⟨kk.val % 8, _⟩ : Fin 8) n)) 4#32)) 15#32).toInt : ℝ) : EReal)
      - Ideal.ofBits .f32 0x41000000#32 = _
  rw [bcast_a1c_abc (a := 128) (b := 8) (c := 256) (by decide) (by decide) _ broadcasts_S128x1x256_S128x8x256,
    cast_ac_a1c (a := 128) (c := 256) qw shapeCasts_S128x256_S128x1x256, iota_single_apply]
  rfl

/-- The dequantized weights at (kk, n), from the unpacked tile W, the zero points z and the scales sc of its eight groups. -/
theorem dequant_at (W : FVec Ideal S1024x256 .f32) (z sc : Vec Ideal S8x256 .f32) (kk : Fin 1024) (n : Fin 256) :
    (truncf (F := Ideal) .bf16 (shapeCast S1024x256 (mulf (broadcastTo S8x128x256 (shapeCast S8x1x256 sc shapeCasts_S8x256_S8x1x256) broadcasts_S8x1x256_S8x128x256)
        (subf (shapeCast S8x128x256 W shapeCasts_S1024x256_S8x128x256)
          (broadcastTo S8x128x256 (shapeCast S8x1x256 (shapeCast S8x256 z shapeCasts_S8x256_S8x256) shapeCasts_S8x256_S8x1x256) broadcasts_S8x1x256_S8x128x256)))
        shapeCasts_S8x128x256_S1024x256) bitsLt_bf16_f32) (ix2 kk n)
      = sc (ix2 (g8 kk) n) * (W (ix2 kk n) - z (ix2 (g8 kk) n)) := by
  show (shapeCast S1024x256 (mulf (broadcastTo S8x128x256 (shapeCast S8x1x256 sc shapeCasts_S8x256_S8x1x256) broadcasts_S8x1x256_S8x128x256)
        (subf (shapeCast S8x128x256 W shapeCasts_S1024x256_S8x128x256)
          (broadcastTo S8x128x256 (shapeCast S8x1x256 (shapeCast S8x256 z shapeCasts_S8x256_S8x256) shapeCasts_S8x256_S8x1x256) broadcasts_S8x1x256_S8x128x256)))
        shapeCasts_S8x128x256_S1024x256) (ix2 kk n) = _
  rw [cast_abc_mc (a := 8) (b := 128) (c := 256) (m := 1024) rfl (by decide) _ shapeCasts_S8x128x256_S1024x256 kk n]
  show (broadcastTo S8x128x256 (shapeCast S8x1x256 sc shapeCasts_S8x256_S8x1x256) broadcasts_S8x1x256_S8x128x256) (ix3 (⟨kk.val / 128, _⟩ : Fin 8) (⟨kk.val % 128, _⟩ : Fin 128) n)
      * ((shapeCast S8x128x256 W shapeCasts_S1024x256_S8x128x256) (ix3 (⟨kk.val / 128, _⟩ : Fin 8) (⟨kk.val % 128, _⟩ : Fin 128) n)
        - (broadcastTo S8x128x256 (shapeCast S8x1x256 (shapeCast S8x256 z shapeCasts_S8x256_S8x256) shapeCasts_S8x256_S8x1x256) broadcasts_S8x1x256_S8x128x256) (ix3 (⟨kk.val / 128, _⟩ : Fin 8) (⟨kk.val % 128, _⟩ : Fin 128) n)) = _
  rw [bcast_a1c_abc (a := 8) (b := 128) (c := 256) (by decide) (by decide) _ broadcasts_S8x1x256_S8x128x256,
    bcast_a1c_abc (a := 8) (b := 128) (c := 256) (by decide) (by decide) _ broadcasts_S8x1x256_S8x128x256,
    cast_ac_a1c (a := 8) (c := 256) sc shapeCasts_S8x256_S8x1x256, cast_ac_a1c (a := 8) (c := 256) _ shapeCasts_S8x256_S8x1x256,
    shapeCast_self, cast_mc_abc (a := 8) (b := 128) (c := 256) (m := 1024) rfl W shapeCasts_S1024x256_S8x128x256]
  have hk : (⟨(⟨kk.val / 128, by have := kk.isLt; omega⟩ : Fin 8).val * 128 + (⟨kk.val % 128, Nat.mod_lt _ (by decide)⟩ : Fin 128).val, by
      have := kk.isLt; show kk.val / 128 * 128 + kk.val % 128 < 1024; omega⟩ : Fin 1024) = kk := Fin.ext (by show kk.val / 128 * 128 + kk.val % 128 = kk.val; omega)
  rw [hk]
  rfl

/-- One unpack-and-dequantize step at (kk, n): the scale of the row's group times (the row's weight minus the group's zero point). -/
theorem pay4_at (qw : Vec Ideal S128x256 .i32) (z sc : Vec Ideal S8x256 .f32) (kk : Fin 1024) (n : Fin 256) :
    k0_pay4 (F := Ideal) qw z sc (ix2 kk n)
      = sc (ix2 (g8 kk) n) * (fieldVal (qw (ix2 (w128 kk) n)) (kk.val % 8) - z (ix2 (g8 kk) n)) := by
  unfold k0_pay4
  refine (dequant_at _ z sc kk n).trans ?_
  rw [unpack_at qw kk n]

theorem pay7_eq : @k0_pay7 = @k0_pay4 := rfl
theorem pay10_eq : @k0_pay10 = @k0_pay4 := rfl
theorem pay13_eq : @k0_pay13 = @k0_pay4 := rfl

/-- The printed dimension numbers are those of a plain matrix product. -/
theorem dot_plain : dot_S1024x1024_S1024x256_S1024x256_1_0_0_1_n_n = DotDims.plain 1024 1024 256 :=
  Cert.LibDot.eq_plain _ rfl rfl rfl rfl rfl rfl

/-- One accumulate step at (r, n). -/
theorem pay6_at (w : FVec Ideal S1024x256 .bf16) (xs : FVec Ideal S1024x1024 .bf16) (acc : Vec Ideal S1024x256 .f32) (r : Fin 1024) (n : Fin 256) :
    k0_pay6 (F := Ideal) w xs acc (ix2 r n) = acc (ix2 r n) + ∑ kk : Fin 1024, xs (ix2 r kk) * w (ix2 kk n) := by
  unfold k0_pay6
  refine (congrFun (shapeCast_self _ _) (ix2 r n)).trans ?_
  show acc (ix2 r n) + matmul dot_S1024x1024_S1024x256_S1024x256_1_0_0_1_n_n none xs w (constant S1024x256 .f32 0x00000000#32) (ix2 r n) = _
  rw [Cert.LibDot.kmatmul_at _ dot_plain]

theorem pay9_eq : @k0_pay9 = @k0_pay6 := rfl
theorem pay12_eq : @k0_pay12 = @k0_pay6 := rfl
theorem pay1_eq : @k0_pay1 = @k0_pay6 := rfl

/-- A loaded slice of x passes through unchanged. -/
theorem pay5_eq (v : Vec Ideal S1024x1024 .bf16) : k0_pay5 (F := Ideal) v = v := by
  unfold k0_pay5; exact shapeCast_self _ _
theorem pay8_eq : @k0_pay8 = @k0_pay5 := rfl
theorem pay11_eq : @k0_pay11 = @k0_pay5 := rfl
theorem pay14_eq : @k0_pay14 = @k0_pay5 := rfl

/-- The accumulator starts at zero. -/
theorem pay3_at (r : Fin 1024) (n : Fin 256) : k0_pay3 (F := Ideal) (ix2 r n) = 0 := by
  unfold k0_pay3
  refine (congrFun (shapeCast_self _ _) (ix2 r n)).trans ?_
  show Ideal.ofBits .f32 0x00000000#32 = 0
  exact Ideal.ofBits_zero_f32

/-- The last step at (r, n): the accumulator plus the bias row. -/
theorem pay2_at (acc : Vec Ideal S1024x256 .f32) (b : Vec Ideal S1x256 .f32) (r : Fin 1024) (n : Fin 256) :
    k0_pay2 (F := Ideal) acc b (ix2 r n) = acc (ix2 r n) + b (ix2 (0 : Fin 1) n) := by
  unfold k0_pay2
  show acc (ix2 r n) + (broadcastTo S1024x256 (shapeCast S1x256 b shapeCasts_S1x256_S1x256) broadcasts_S1x256_S1024x256) (ix2 r n) = _
  rw [broadcastTo_1b_ab_apply, shapeCast_self]

end Cert.KernelIdeal.Body

end
-- ==== Proof.KernelOut.lean ====
/-
  What one run of the kernel body leaves in its output block, as a function of its five input blocks.

  The body zeroes an accumulator, and four times over (K cut into runs of 1024) unpacks 128 rows of packed words into 1024
  rows of weights, dequantizes them with the eight scale and zero-point rows of that run, multiplies the matching 1024
  columns of the x block into them and adds the product to the accumulator; it ends by adding the bias row. The accumulator
  is read back each time as what was last stored in it. Entry (r, n) of the result is therefore
  0 + S0 + S1 + S2 + S3 + bias(0, n), S_c the sum over kk < 1024 of x(r, 1024 c + kk) * W(1024 c + kk, n), which is the sum over
  all k < 4096 (the sum of the four runs): the block function of the specification.
-/
import proofs.«406074_j69647189672510_3_alg».proof.Proof.Gen.KernelIdeal.Frame
import proofs.«406074_j69647189672510_3_alg».proof.Proof.KernelBody

set_option maxRecDepth 16384

noncomputable section

open scoped BigOperators

namespace Cert.KernelIdeal.Out

open Cert.KernelIdeal Cert.KernelIdeal.Gen Cert.KernelIdeal.Body Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero offsets of a whole block. -/
theorem hz : (![0, 0] : Fin 2 → Nat) = fun _ => 0 := funext fun a => by fin_cases a <;> rfl

/-- A read of a whole buffer after several whole stores reads the last one stored. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- A run of rows of a two-dimensional array, loaded: entry (a, n) is the array at (o + a, n). -/
theorem ld_rows {Val : EltTy → Type} {e : EltTy} {R C R' : ℕ} (X : (⟨2, ![R, C]⟩ : Shape).Idx → Val e) (o : ℕ)
    (inb : ∀ a, (![o, 0] : Fin 2 → ℕ) a + (![R', C] : Fin 2 → ℕ) a ≤ (⟨2, ![R, C]⟩ : Shape).size a) (a : Fin R') (n : Fin C) :
    View.ld X (Rect.unit (s := ⟨2, ![R, C]⟩) ![o, 0] ![R', C] inb) (ix2 a n)
      = X (ix2 (⟨o + a.val, Nat.lt_of_lt_of_le (Nat.add_lt_add_left a.isLt o) (inb 0)⟩ : Fin R) n) :=
  congrArg X (funext fun ax => Fin.ext (match ax with
    | ⟨0, _⟩ => by show o + 1 * a.val = o + a.val; omega
    | ⟨1, _⟩ => by show 0 + 1 * n.val = n.val; omega))

/-- A run of columns of a two-dimensional array, loaded: entry (r, a) is the array at (r, o + a). -/
theorem ld_cols {Val : EltTy → Type} {e : EltTy} {R C C' : ℕ} (X : (⟨2, ![R, C]⟩ : Shape).Idx → Val e) (o : ℕ)
    (inb : ∀ a, (![0, o] : Fin 2 → ℕ) a + (![R, C'] : Fin 2 → ℕ) a ≤ (⟨2, ![R, C]⟩ : Shape).size a) (r : Fin R) (a : Fin C') :
    View.ld X (Rect.unit (s := ⟨2, ![R, C]⟩) ![0, o] ![R, C'] inb) (ix2 r a)
      = X (ix2 r (⟨o + a.val, Nat.lt_of_lt_of_le (Nat.add_lt_add_left a.isLt o) (inb 1)⟩ : Fin C)) :=
  congrArg X (funext fun ax => Fin.ext (match ax with
    | ⟨0, _⟩ => by show 0 + 1 * r.val = r.val; omega
    | ⟨1, _⟩ => by show o + 1 * a.val = o + a.val; omega))

/-- The weight of row 1024 c + kk of the matrix, from the rows the body loads for run c. -/
theorem wgt_run (x1 : Vec Ideal S512x256 .i32) (x2 x3 : Vec Ideal S32x256 .f32) (og ow ok : ℕ) (h1 : ok = 128 * og) (h2 : ok = 8 * ow)
    (kk : Fin 1024) (n : Fin 256) (hq : ow + (w128 kk).val < 512) (hg : og + (g8 kk).val < 32) (hk : ok + kk.val < 4096) :
    x3 (ix2 (⟨og + (g8 kk).val, hg⟩ : Fin 32) n)
        * (fieldVal (x1 (ix2 (⟨ow + (w128 kk).val, hq⟩ : Fin 512) n)) (kk.val % 8) - x2 (ix2 (⟨og + (g8 kk).val, hg⟩ : Fin 32) n))
      = wgt (N := 256) x1 x2 x3 (⟨ok + kk.val, hk⟩ : Fin 4096) n := by
  unfold wgt
  have e1 : grp (⟨ok + kk.val, hk⟩ : Fin 4096) = (⟨og + (g8 kk).val, hg⟩ : Fin 32) :=
    Fin.ext (by show (ok + kk.val) / 128 = og + kk.val / 128; omega)
  have e2 : wrd (⟨ok + kk.val, hk⟩ : Fin 4096) = (⟨ow + (w128 kk).val, hq⟩ : Fin 512) :=
    Fin.ext (by show (ok + kk.val) / 8 = ow + kk.val / 8; omega)
  have e3 : (ok + kk.val) % 8 = kk.val % 8 := by omega
  rw [e1, e2]
  show _ = x3 _ * (fieldVal _ ((ok + kk.val) % 8) - _)
  rw [e3]

/-- One term of run number ok / 1024 of the sum, as the body computes it from the rows it loaded, is the term of the whole sum at
    k = ok + kk. -/
theorem term_run (x0 : Vec Ideal S1024x4096 .bf16) (x1 : Vec Ideal S512x256 .i32) (x2 x3 : Vec Ideal S32x256 .f32) (r : Fin 1024)
    (og ow ok : ℕ) (h1 : ok = 128 * og) (h2 : ok = 8 * ow) (kk : Fin 1024) (n : Fin 256) (k : Fin 4096) (hk : k.val = ok + kk.val)
    (hx : ok + kk.val < 4096) (hg : og + (g8 kk).val < 32) (hq : ow + (w128 kk).val < 512) :
    x0 (ix2 r (⟨ok + kk.val, hx⟩ : Fin 4096))
        * (x3 (ix2 (⟨og + (g8 kk).val, hg⟩ : Fin 32) n)
          * (fieldVal (x1 (ix2 (⟨ow + (w128 kk).val, hq⟩ : Fin 512) n)) (kk.val % 8) - x2 (ix2 (⟨og + (g8 kk).val, hg⟩ : Fin 32) n)))
      = x0 (ix2 r k) * wgt (N := 256) x1 x2 x3 k n := by
  obtain rfl : k = (⟨ok + kk.val, hx⟩ : Fin 4096) := Fin.ext hk
  exact congrArg (x0 (ix2 r (⟨ok + kk.val, hx⟩ : Fin 4096)) * ·) (wgt_run x1 x2 x3 og ow ok h1 h2 kk n hq hg hx)

-- the loaded rectangles' in-bounds evidence is stated through the printed offset functions, equal to the literal offsets by unfolding
set_option backward.isDefEq.respectTransparency.types false in
/-- What the body leaves in its output block: the block function of the specification, of its five input blocks. -/
theorem out_eq (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S32x256 .f32) (harg4 : arg4.IsWhole) (arg5 : Memref sig .tc .vmem S32x256 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (x0 : Vec Ideal S1024x4096 .bf16) (x1 : Vec Ideal S512x256 .i32) (x2 : Vec Ideal S32x256 .f32) (x3 : Vec Ideal S32x256 .f32) (x4 : Vec Ideal S1x256 .f32) :
    out0_A_5 (F := Ideal) c i arg2 harg2 arg3 harg3 arg4 harg4 arg5 harg5 arg6 harg6 arg7 harg7 arg8 harg8 x0 x1 x2 x3 x4 = fun j => qmm 1024 256 x0 x1 x2 x3 x4 (j 0) (j 1) := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_unit_zero (S := S1024x256) hz]
  simp only [View.readAt_eq_ld, harg2.read_unread, harg3.read_unread, harg4.read_unread, harg5.read_unread, harg6.read_unread,
    readCov_cons_unit_zero (S := S1024x256) _ hz, View.readCov_unit_zero (S := S1024x256) _ hz,
    View.ld_unit_zero (S := S1024x256) hz, View.ld_unit_zero (S := S1x256) hz]
  funext j
  obtain ⟨r, n, rfl⟩ : ∃ (r : Fin 1024) (n : Fin 256), j = ix2 r n := ⟨j 0, j 1, eq_ix2 j⟩
  show _ = qmm 1024 256 x0 x1 x2 x3 x4 r n
  rw [pay2_at, pay1_eq, pay6_at, pay12_eq, pay6_at, pay9_eq, pay6_at, pay6_at, pay3_at]
  simp only [pay14_eq, pay11_eq, pay8_eq, pay5_eq, pay13_eq, pay10_eq, pay7_eq, pay4_at]
  unfold qmm
  refine congrArg (· + x4 (ix2 (0 : Fin 1) n)) ?_
  refine Eq.trans ?_ (sum_chunks_acc (fun k => x0 (ix2 r k) * wgt x1 x2 x3 k n))
  refine congrArg₂ (· + ·) (congrArg₂ (· + ·) (congrArg₂ (· + ·) (congrArg (0 + ·) ?_) ?_) ?_) ?_
  · refine Finset.sum_congr rfl fun kk _ => ?_
    rw [ld_cols, ld_rows, ld_rows, ld_rows]
    exact term_run x0 x1 x2 x3 r 0 0 0 rfl rfl kk n _ (Nat.zero_add _).symm _ _ _
  · refine Finset.sum_congr rfl fun kk _ => ?_
    rw [ld_cols, ld_rows, ld_rows, ld_rows]
    exact term_run x0 x1 x2 x3 r 8 128 1024 rfl rfl kk n _ rfl _ _ _
  · refine Finset.sum_congr rfl fun kk _ => ?_
    rw [ld_cols, ld_rows, ld_rows, ld_rows]
    exact term_run x0 x1 x2 x3 r 16 256 2048 rfl rfl kk n _ rfl _ _ _
  · refine Finset.sum_congr rfl fun kk _ => ?_
    rw [ld_cols, ld_rows, ld_rows, ld_rows]
    exact term_run x0 x1 x2 x3 r 24 384 3072 rfl rfl kk n _ rfl _ _ _

end Cert.KernelIdeal.Out

end
-- ==== Proof.KernelHost.lean ====
/-
  The arrays the kernel's region is handed, after the host operations that precede it.

  Before its one region the kernel program unpacks the zero points on the host: it repeats every packed word eight times
  along a new last axis, shifts copy p right by 4p (the shift amounts 0, 4, ..., 28 are 0 + 4 * p), masks with 15, flattens
  32 x 1376 x 8 to 32 x 11008 (position (g, c, p) goes to (g, 8c + p), so entry (g, n) comes from word (g, n / 8), field
  n % 8), converts the field to a real number and subtracts the literal 8.0. That is the array of zero points of the
  common result. The bias is reshaped to one row, and x is cast to a narrower float format, which on exact numbers changes
  nothing.
-/
import proofs.«406074_j69647189672510_3_alg».proof.Proof.Gen.KernelIdeal.Frame.Runs
import proofs.«406074_j69647189672510_3_alg».proof.Proof.Spec
import Idealize.ShloMosaic.Lib.KernelVsHost
import Idealize.ShloMosaic.Lib.ValueLayout
import Idealize.ShloMosaic.Lib.StableHlo.Run

noncomputable section

namespace Cert.KernelIdeal.Host

open Cert.KernelIdeal Cert.KernelIdeal.Gen Cert.Quant Idealize.ShloMosaic Idealize.ShloMosaic.TcCoe Idealize.ShloMosaic.ValueIdx Idealize.SL.Sem

/-- The vector of shift amounts as the host builds it: 0 + 4 * p at p. -/
abbrev shiftsTerm : S8.Idx → BitVec 32 :=
  addi (broadcastInDim S8 ![] bcast_S_S8 (constantI S_ 32 0#32))
    (muli (broadcastInDim S8 ![] bcast_S_S8 (constantI S_ 32 4#32)) (iotaInDim S8 32 0))

/-- The unpacked fields of an array of packed words, before the flattening: each word repeated along a new last axis,
    shifted by that axis's amount and masked. -/
abbrev fieldsTerm (q : S32x1376.Idx → BitVec 32) : S32x1376x8.Idx → BitVec 32 :=
  andi
    (Host.shrsi
      (broadcastInDim S32x1376x8 ![0, 1, 2] bcast_S32x1376x1_S32x1376x8_0_1_2
        (broadcastInDim S32x1376x1 ![0, 1] bcast_S32x1376_S32x1376x1_0_1 q))
      (broadcastInDim S32x1376x8 ![0, 1, 2] bcast_S1x1x8_S32x1376x8_0_1_2
        (broadcastInDim S1x1x8 ![2] bcast_S8_S1x1x8_2 shiftsTerm)))
    (broadcastInDim S32x1376x8 ![] bcast_S_S32x1376x8 (constantI S_ 32 15#32))

/-- The zero points as the host operations compute them from the packed words. -/
abbrev zeroTerm (q : S32x1376.Idx → BitVec 32) : S32x11008.Idx → EReal :=
  subf (sitofp .f32 (shapeCast S32x11008 (fieldsTerm q) shapeCasts_S32x1376x8_S32x11008))
    (broadcastInDim S32x11008 ![] bcast_S_S32x11008 (constant (F := Ideal) S_ .f32 0x41000000#32))

/-- Entry p of the shift vector is 4p. -/
theorem shiftsTerm_at (p : Fin 8) : shiftsTerm (ix1 p) = shiftOf p.val :=
  shiftOf_host p.val

/-- A packed word repeated along the new last axis: copy p of word (g, c) is the word. -/
theorem words_at (q : S32x1376.Idx → BitVec 32) (g : Fin 32) (c : Fin 1376) (p : Fin 8) :
    broadcastInDim S32x1376x8 ![0, 1, 2] bcast_S32x1376x1_S32x1376x8_0_1_2
      (broadcastInDim S32x1376x1 ![0, 1] bcast_S32x1376_S32x1376x1_0_1 q) (ix3 g c p) = q (ix2 g c) :=
  (broadcastInDim_apply _ bcast_S32x1376x1_S32x1376x8_0_1_2 _ (ix3 g c p) (ix3 g c (0 : Fin 1)) (fun a => match a with
    | ⟨0, _⟩ => by show g.val = if (32 : Nat) = 1 then 0 else g.val; rw [if_neg (by decide)]
    | ⟨1, _⟩ => by show c.val = if (1376 : Nat) = 1 then 0 else c.val; rw [if_neg (by decide)]
    | ⟨2, _⟩ => by show 0 = if (1 : Nat) = 1 then 0 else p.val; rw [if_pos rfl])).trans
  (broadcastInDim_apply _ bcast_S32x1376_S32x1376x1_0_1 q (ix3 g c (0 : Fin 1)) (ix2 g c) (fun a => match a with
    | ⟨0, _⟩ => by show g.val = if (32 : Nat) = 1 then 0 else g.val; rw [if_neg (by decide)]
    | ⟨1, _⟩ => by show c.val = if (1376 : Nat) = 1 then 0 else c.val; rw [if_neg (by decide)]))

/-- The shift vector laid along the last axis and repeated over the words: at (g, c, p) it is entry p. -/
theorem amounts_at (s : S8.Idx → BitVec 32) (g : Fin 32) (c : Fin 1376) (p : Fin 8) :
    broadcastInDim S32x1376x8 ![0, 1, 2] bcast_S1x1x8_S32x1376x8_0_1_2
      (broadcastInDim S1x1x8 ![2] bcast_S8_S1x1x8_2 s) (ix3 g c p) = s (ix1 p) :=
  (broadcastInDim_apply _ bcast_S1x1x8_S32x1376x8_0_1_2 _ (ix3 g c p) (ix3 (0 : Fin 1) (0 : Fin 1) p) (fun a => match a with
    | ⟨0, _⟩ => by show 0 = if (1 : Nat) = 1 then 0 else g.val; rw [if_pos rfl]
    | ⟨1, _⟩ => by show 0 = if (1 : Nat) = 1 then 0 else c.val; rw [if_pos rfl]
    | ⟨2, _⟩ => by show p.val = if (8 : Nat) = 1 then 0 else p.val; rw [if_neg (by decide)])).trans
  (broadcastInDim_apply _ bcast_S8_S1x1x8_2 s (ix3 (0 : Fin 1) (0 : Fin 1) p) (ix1 p) (fun a => match a with
    | ⟨0, _⟩ => by show p.val = if (8 : Nat) = 1 then 0 else p.val; rw [if_neg (by decide)]))

/-- Entry (g, c, p) of the unpacked fields is field p of word (g, c). -/
theorem fieldsTerm_at (q : S32x1376.Idx → BitVec 32) (g : Fin 32) (c : Fin 1376) (p : Fin 8) :
    fieldsTerm q (ix3 g c p) = nib (q (ix2 g c)) p.val := by
  show IntOp.andi (IntOp.shrsi .host
      (broadcastInDim S32x1376x8 ![0, 1, 2] bcast_S32x1376x1_S32x1376x8_0_1_2
        (broadcastInDim S32x1376x1 ![0, 1] bcast_S32x1376_S32x1376x1_0_1 q) (ix3 g c p))
      (broadcastInDim S32x1376x8 ![0, 1, 2] bcast_S1x1x8_S32x1376x8_0_1_2
        (broadcastInDim S1x1x8 ![2] bcast_S8_S1x1x8_2 shiftsTerm) (ix3 g c p))) 15#32 = _
  rw [words_at, amounts_at, shiftsTerm_at, shrsi_unit .host .vector]
  rfl

/-- Entry (g, n) of the host's zero points is field n % 8 of word (g, n / 8) as a real number, minus 8.0: row-major
    position g * 11008 + n of the 32 x 11008 array is position (g, n / 8, n % 8) of the 32 x 1376 x 8 one. -/
theorem zeroTerm_at (q : S32x1376.Idx → BitVec 32) (g : Fin 32) (n : Fin 11008) :
    zeroTerm q (ix2 g n) = fieldVal (q (ix2 g (zwd n))) (n.val % 8) := by
  show (((shapeCast S32x11008 (fieldsTerm q) shapeCasts_S32x1376x8_S32x11008 (ix2 g n)).toInt : ℝ) : EReal)
    - Ideal.ofBits .f32 0x41000000#32 = _
  rw [shapeCast_apply (fieldsTerm q) shapeCasts_S32x1376x8_S32x11008 (ix2 g n)
    (ix3 g (zwd n) (⟨n.val % 8, Nat.mod_lt _ (by decide)⟩ : Fin 8))
    (by rewrite [Shape.rowMajor_val_three, Shape.rowMajor_val_two]
        show (g.val * 1376 + n.val / 8) * 8 + n.val % 8 = g.val * 11008 + n.val
        omega), fieldsTerm_at]
  rfl

variable (m : (ℓ : Loc nD τ sig) → Buf (Elt Ideal) ℓ)

/-- The region finds x as it was launched: the change of float format is the identity on exact numbers. -/
theorem V_x (c : Dev nD) : (V m c main_v17 : S8192x4096.Idx → EReal) = m ((c : Thread nD τ).loc main_arg0) := by
  dsimp only [Gen.V, Gen.hostOps0]
  after_results
  rfl

/-- The region finds the zero points unpacked. -/
theorem V_zero (c : Dev nD) : (V m c main_v15 : S32x11008.Idx → EReal) = unpackZeros (m ((c : Thread nD τ).loc main_arg2)) := by
  have e : (V m c main_v15 : S32x11008.Idx → EReal) = zeroTerm (m ((c : Thread nD τ).loc main_arg2)) := by
    dsimp only [Gen.V, Gen.hostOps0]
    after_results
    rfl
  rw [e]
  funext j
  obtain ⟨g, n, rfl⟩ : ∃ (g : Fin 32) (n : Fin 11008), j = ix2 g n := ⟨j 0, j 1, eq_ix2 j⟩
  exact zeroTerm_at _ g n

/-- The region finds the bias as one row. -/
theorem V_bias (c : Dev nD) : (V m c main_v16 : S1x11008.Idx → EReal) = asRow (m ((c : Thread nD τ).loc main_arg4)) := by
  have e : (V m c main_v16 : S1x11008.Idx → EReal)
      = shapeCast S1x11008 (m ((c : Thread nD τ).loc main_arg4) : S11008.Idx → EReal) shapeCasts_S11008_S1x11008 := by
    dsimp only [Gen.V, Gen.hostOps0]
    after_results
    rfl
  rw [e]
  funext j
  obtain ⟨u, n, rfl⟩ : ∃ (u : Fin 1) (n : Fin 11008), j = ix2 u n := ⟨j 0, j 1, eq_ix2 j⟩
  exact shapeCast_a_1a_apply _ _ u n

end Cert.KernelIdeal.Host

end
-- ==== Proof.KernelFinal.lean ====
/-
  From blocks to the whole result array.

  The output is cut into 8 x 43 blocks of 1024 x 256; grid point t writes block (i, j) with t = 43 i + j. At that point the x block
  is rows 1024 i .. of x (all 4096 columns), and the packed weights, zero points, scales and bias are columns 256 j .. of their
  arrays (all rows). The block function of the specification, fed those blocks, is therefore the array function read through
  block (i, j): entry (r, n) of the block is entry (1024 i + r, 256 j + n) of the array. Every entry of the array lies in exactly
  the block (row / 1024, column / 256), so after the run the array holds the array function everywhere; and the arrays the
  call finds are the arguments themselves, the unpacked zero points, and the bias as one row.
-/
import proofs.«406074_j69647189672510_3_alg».proof.Proof.Gen.KernelIdeal.Value
import proofs.«406074_j69647189672510_3_alg».proof.Proof.KernelOut
import proofs.«406074_j69647189672510_3_alg».proof.Proof.KernelHost

set_option maxRecDepth 16384

noncomputable section

open scoped BigOperators

namespace Cert.KernelIdeal.Final

open Cert.KernelIdeal Cert.KernelIdeal.Gen Cert.KernelIdeal.Body Cert.KernelIdeal.Out Cert.Quant
open Idealize.ShloMosaic Idealize.ShloMosaic.TcCoe Idealize.ShloMosaic.ValueIdx Idealize.SL.Sem
open Idealize.ShloMosaic.Pipeline (Dat)

/-- The block function fed blocks (bi, bj) of five arrays is the array function at the matching entry. -/
theorem qmm_block (X : Vec Ideal S8192x4096 .bf16) (QW : Vec Ideal S512x11008 .i32) (Z SC : Vec Ideal S32x11008 .f32) (B : Vec Ideal S1x11008 .f32)
    (x0 : Vec Ideal S1024x4096 .bf16) (x1 : Vec Ideal S512x256 .i32) (x2 x3 : Vec Ideal S32x256 .f32) (x4 : Vec Ideal S1x256 .f32)
    (bi bj : ℕ) (hbi : bi ≤ 7) (hbj : bj ≤ 42)
    (h0 : ∀ (r : Fin 1024) (k : Fin 4096), x0 (ix2 r k) = X (ix2 (⟨bi * 1024 + r.val, by have := r.isLt; omega⟩ : Fin 8192) k))
    (h1 : ∀ (q : Fin 512) (n : Fin 256), x1 (ix2 q n) = QW (ix2 q (⟨bj * 256 + n.val, by have := n.isLt; omega⟩ : Fin 11008)))
    (h2 : ∀ (g : Fin 32) (n : Fin 256), x2 (ix2 g n) = Z (ix2 g (⟨bj * 256 + n.val, by have := n.isLt; omega⟩ : Fin 11008)))
    (h3 : ∀ (g : Fin 32) (n : Fin 256), x3 (ix2 g n) = SC (ix2 g (⟨bj * 256 + n.val, by have := n.isLt; omega⟩ : Fin 11008)))
    (h4 : ∀ (n : Fin 256), x4 (ix2 (0 : Fin 1) n) = B (ix2 (0 : Fin 1) (⟨bj * 256 + n.val, by have := n.isLt; omega⟩ : Fin 11008)))
    (r : Fin 1024) (n : Fin 256) :
    qmm 1024 256 x0 x1 x2 x3 x4 r n
      = qmm 8192 11008 X QW Z SC B (⟨bi * 1024 + r.val, by have := r.isLt; omega⟩ : Fin 8192) (⟨bj * 256 + n.val, by have := n.isLt; omega⟩ : Fin 11008) := by
  unfold qmm wgt
  simp only [h0, h1, h2, h3, h4]

variable (m : (ℓ : Loc nD τ sig) → Buf (Elt Ideal) ℓ) (ρ : Dev nD → PrngReg)

/-- The five arrays as the call finds them, and the five blocks at a grid point, each at its literal type. -/
abbrev aX (c : Dev nD) : Vec Ideal S8192x4096 .bf16 := V m c main_v17
abbrev aQ (c : Dev nD) : Vec Ideal S512x11008 .i32 := V m c main_arg1
abbrev aZ (c : Dev nD) : Vec Ideal S32x11008 .f32 := V m c main_v15
abbrev aS (c : Dev nD) : Vec Ideal S32x11008 .f32 := V m c main_arg3
abbrev aB (c : Dev nD) : Vec Ideal S1x11008 .f32 := V m c main_v16
abbrev bX (c : Dev nD) (t : Fin cfg0.N) : Vec Ideal S1024x4096 .bf16 := iblk m c 0 t
abbrev bQ (c : Dev nD) (t : Fin cfg0.N) : Vec Ideal S512x256 .i32 := iblk m c 1 t
abbrev bZ (c : Dev nD) (t : Fin cfg0.N) : Vec Ideal S32x256 .f32 := iblk m c 2 t
abbrev bS (c : Dev nD) (t : Fin cfg0.N) : Vec Ideal S32x256 .f32 := iblk m c 3 t
abbrev bB (c : Dev nD) (t : Fin cfg0.N) : Vec Ideal S1x256 .f32 := iblk m c 4 t

/-- The array function of the arrays the call finds. -/
abbrev arrFn (c : Dev nD) : Vec Ideal S8192x11008 .f32 :=
  fun i => qmm 8192 11008 (aX m c) (aQ m c) (aZ m c) (aS m c) (aB m c) (i 0) (i 1)

/-- The output's block index at a point is the point's pair of grid coordinates: t / 43 and t % 43. -/
theorem out_index (t : Fin cfg0.N) :
    win0_5.index t (0 : Fin 2) = (grid0.coords t 0).val % 2 ^ 32 ∧ win0_5.index t (1 : Fin 2) = (grid0.coords t 1).val % 2 ^ 32 :=
  ⟨rfl, rfl⟩

/-- The printed block index maps at any grid point: the x block follows the output's row block, the other four its column
    block, and the output's block indices stay inside the 8 x 43 grid. -/
theorem idx_facts (t : Fin cfg0.N) :
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 7 ∧ win0_5.index t (1 : Fin 2) ≤ 42 := by
  have c0 : (grid0.coords t 0).val < 8 := (grid0.coords t 0).isLt
  have c1 : (grid0.coords t 1).val < 43 := (grid0.coords t 1).isLt
  obtain ⟨o0, o1⟩ := out_index t
  refine ⟨rfl, rfl, rfl, rfl, rfl, rfl, rfl, rfl, rfl, rfl, ?_, ?_⟩
  · rw [o0]; exact Nat.le_of_lt_succ (lt_of_le_of_lt (Nat.mod_le _ _) c0)
  · rw [o1]; exact Nat.le_of_lt_succ (lt_of_le_of_lt (Nat.mod_le _ _) c1)

/-- Block (q0, q1) of the output is written at point 43 q0 + q1. -/
theorem idx_onto (q0 : Fin 8) (q1 : Fin 43) : ∃ t : Fin cfg0.N, win0_5.index t = ![q0.val, q1.val] := by
  have hN : cfg0.N = 344 := N_0
  have hq0 := q0.isLt
  have hq1 := q1.isLt
  have s0 : grid0.stride 0 = 43 := by decide
  have s1 : grid0.stride 1 = 1 := by decide
  refine ⟨⟨q0.val * 43 + q1.val, by rw [hN]; omega⟩, funext fun a => ?_⟩
  obtain ⟨o0, o1⟩ := out_index (⟨q0.val * 43 + q1.val, by rw [hN]; omega⟩ : Fin cfg0.N)
  match a with
  | ⟨0, _⟩ =>
    refine o0.trans ?_
    show (q0.val * 43 + q1.val) / grid0.stride 0 % 8 % 2 ^ 32 = q0.val
    rw [s0]; omega
  | ⟨1, _⟩ =>
    refine o1.trans ?_
    show (q0.val * 43 + q1.val) / grid0.stride 1 % 43 % 2 ^ 32 = q1.val
    rw [s1]; omega

/-- What point t writes back is block t of the array function. -/
theorem flushed_eq (c : Dev nD) (t : Fin cfg0.N) :
    (dats m 0 c).flushed 5 t = ((cfg0.win 5).blk t).view.read (Elt Ideal) (arrFn m c) := by
  rw [Value.flushed5_A, out_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)]
  obtain ⟨e00, e01, e10, e11, e20, e21, e30, e31, e40, e41, b0, b1⟩ := idx_facts t
  funext j
  have hj0 : (j 0).val < 1024 := (j 0).isLt
  have hj1 : (j 1).val < 256 := (j 1).isLt
  show qmm 1024 256 (bX m c t) (bQ m c t) (bZ m c t) (bS m c t) (bB m c t) (⟨(j 0).val, hj0⟩ : Fin 1024) (⟨(j 1).val, hj1⟩ : Fin 256)
    = arrFn m c (((cfg0.win 5).blk t).view.emb j)
  refine (qmm_block (aX m c) (aQ m c) (aZ m c) (aS m c) (aB m c) (bX m c t) (bQ m c t) (bZ m c t) (bS m c t) (bB m c t)
    (win0_5.index t (0 : Fin 2)) (win0_5.index t (1 : Fin 2)) b0 b1 ?_ ?_ ?_ ?_ ?_ ⟨(j 0).val, hj0⟩ ⟨(j 1).val, hj1⟩).trans ?_
  · intro r k
    show V m c main_v17 (((cfg0.win 0).blk t).view.emb (ix2 r k)) = V m c main_v17 (ix2 _ k)
    refine congrArg (V m c main_v17) (funext fun a => Fin.ext ?_)
    match a with
    | ⟨0, _⟩ => show win0_0.index t (0 : Fin 2) * 1024 + 1 * r.val = win0_5.index t (0 : Fin 2) * 1024 + r.val; omega
    | ⟨1, _⟩ => show win0_0.index t (1 : Fin 2) * 4096 + 1 * k.val = k.val; omega
  · intro q n
    show V m c main_arg1 (((cfg0.win 1).blk t).view.emb (ix2 q n)) = V m c main_arg1 (ix2 q _)
    refine congrArg (V m c main_arg1) (funext fun a => Fin.ext ?_)
    match a with
    | ⟨0, _⟩ => show win0_1.index t (0 : Fin 2) * 512 + 1 * q.val = q.val; omega
    | ⟨1, _⟩ => show win0_1.index t (1 : Fin 2) * 256 + 1 * n.val = win0_5.index t (1 : Fin 2) * 256 + n.val; omega
  · intro g n
    show V m c main_v15 (((cfg0.win 2).blk t).view.emb (ix2 g n)) = V m c main_v15 (ix2 g _)
    refine congrArg (V m c main_v15) (funext fun a => Fin.ext ?_)
    match a with
    | ⟨0, _⟩ => show win0_2.index t (0 : Fin 2) * 32 + 1 * g.val = g.val; omega
    | ⟨1, _⟩ => show win0_2.index t (1 : Fin 2) * 256 + 1 * n.val = win0_5.index t (1 : Fin 2) * 256 + n.val; omega
  · intro g n
    show V m c main_arg3 (((cfg0.win 3).blk t).view.emb (ix2 g n)) = V m c main_arg3 (ix2 g _)
    refine congrArg (V m c main_arg3) (funext fun a => Fin.ext ?_)
    match a with
    | ⟨0, _⟩ => show win0_3.index t (0 : Fin 2) * 32 + 1 * g.val = g.val; omega
    | ⟨1, _⟩ => show win0_3.index t (1 : Fin 2) * 256 + 1 * n.val = win0_5.index t (1 : Fin 2) * 256 + n.val; omega
  · intro n
    show V m c main_v16 (((cfg0.win 4).blk t).view.emb (ix2 (0 : Fin 1) n)) = V m c main_v16 (ix2 (0 : Fin 1) _)
    refine congrArg (V m c main_v16) (funext fun a => Fin.ext ?_)
    match a with
    | ⟨0, _⟩ => show win0_4.index t (0 : Fin 2) * 1 + 1 * 0 = 0; omega
    | ⟨1, _⟩ => show win0_4.index t (1 : Fin 2) * 256 + 1 * n.val = win0_5.index t (1 : Fin 2) * 256 + n.val; omega
  · show qmm 8192 11008 (aX m c) (aQ m c) (aZ m c) (aS m c) (aB m c) _ _
      = qmm 8192 11008 (aX m c) (aQ m c) (aZ m c) (aS m c) (aB m c) ((((cfg0.win 5).blk t).view.emb j) 0) ((((cfg0.win 5).blk t).view.emb j) 1)
    refine congrArg₂ (qmm 8192 11008 (aX m c) (aQ m c) (aZ m c) (aS m c) (aB m c)) (Fin.ext ?_) (Fin.ext ?_)
    · show win0_5.index t (0 : Fin 2) * 1024 + (j 0).val = win0_5.index t (0 : Fin 2) * 1024 + 1 * (j 0).val; omega
    · show win0_5.index t (1 : Fin 2) * 256 + (j 1).val = win0_5.index t (1 : Fin 2) * 256 + 1 * (j 1).val; omega

/-- An entry of the array is in point t's block exactly when each coordinate is in the block's range. -/
theorem mem_blk (t : Fin cfg0.N) (i : S8192x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v18).slice (win0_5.rect t)).set ↔ _
  rw [View.set_slice_whole, Rect.mem_set_unit]
  exact Iff.rfl

/-- Every entry of the array lies in some point's block: the block (row / 1024, column / 256). -/
theorem cover (i : S8192x11008.Idx) : ∃ t : Fin cfg0.N, (cfg0.win 5).flush t = true ∧ i ∈ ((cfg0.win 5).blk t).view.set := by
  have hi0 : (i 0).val < 8192 := (i 0).isLt
  have hi1 : (i 1).val < 11008 := (i 1).isLt
  obtain ⟨t, ht⟩ := idx_onto ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- After the run the result array holds the common result of the five arguments. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  have hx : aX m c = m ((c : Thread nD τ).loc main_arg0) := Host.V_x m c
  have hq : aQ m c = m ((c : Thread nD τ).loc main_arg1) := V_main_arg1 m c
  have hz : aZ m c = unpackZeros (m ((c : Thread nD τ).loc main_arg2)) := Host.V_zero m c
  have hs : aS m c = m ((c : Thread nD τ).loc main_arg3) := V_main_arg3 m c
  have hb : aB m c = asRow (m ((c : Thread nD τ).loc main_arg4)) := Host.V_bias m c
  refine ((dats m 0 c).arrAt_eq_of_cover 5 (arrFn m c) (fun t _ => flushed_eq m c t) cover).trans ?_
  unfold arrFn
  rw [hx, hq, hz, hs, hb]
  rfl

/-- The kernel's run: it ends with the common result in the result array and the arguments unchanged. -/
theorem run : θ_run defs (onTc (τ := τ) (main (F := Ideal))) ⟨m, fun _ => 0, ρ⟩ fun r => ∀ c : Dev nD,
      r.2.mem ((c : Thread nD τ).loc main_v18)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.RefSide.lean ====
/-
  The reference program computes the common result.

  The reference unpacks both packed arrays with one vector of shift amounts (0, 4, ..., 28), masks with 15, subtracts 8 as
  an integer, regroups the weights as 32 groups of 128 rows, converts to reals, multiplies the difference by the scale of
  the group, flattens back to 4096 rows, contracts with x over k and adds the bias. Read entry by entry this is the sum
  over k of x(r, k) * (scale(k / 128, n) * (weight(k, n) - zero(k / 128, n))) plus bias(n): the reshapes only rename
  positions (row-major position arithmetic at the literal sizes), the broadcasts drop coordinates, and subtracting 8
  before or after the conversion to a real number is the same because a field is at most 15.
-/
import proofs.«406074_j69647189672510_3_alg».proof.Proof.Gen.ReferenceIdeal.Read
import proofs.«406074_j69647189672510_3_alg».proof.Proof.Spec
import Idealize.ShloMosaic.Lib.KernelVsHost

noncomputable section

open scoped BigOperators

namespace Cert.Quant

open Idealize.ShloMosaic Idealize.ShloMosaic.ValueIdx Cert.ReferenceIdeal Cert.ReferenceIdeal.Read

section Fields

variable {F : FTy → Type} [FloatOps F]

/-- The vector of shift amounts: entry p is 4p. -/
theorem shifts_at (i : S8.Idx) : val_main_v4 (F := F) i = shiftOf (i 0).val := by
  rw [val_main_v4_apply, val_main_v3_apply, val_main_c_0_apply, val_main_v2_apply, val_main_v1_apply, val_main_c_apply,
    val_main_v0_apply]
  exact shiftOf_host _

/-- The unpacked weight fields before the regrouping: entry (w, p, n) is field p of the packed word (w, n). -/
theorem wfield_at (x1 : (⟨S512x11008, .i32⟩ : BufTy).Contents (Elt F)) (w : Fin 512) (p : Fin 8) (n : Fin 11008) :
    val_main_v11 (F := F) x1 (ix3 w p n) = nib (x1 (ix2 w n)) p.val := by
  rw [val_main_v11_apply, val_main_v9_apply, val_main_v7_apply, val_main_v5_apply, val_main_v8_apply, val_main_v6_apply,
    shifts_at, val_main_v10_apply, val_main_c_1_apply, shrsi_unit .host .vector]
  have e : idx_main_v5 (idx_main_v7 (ix3 w p n)) = ix2 w n := by
    funext a; match a with | ⟨0, _⟩ => rfl | ⟨1, _⟩ => rfl
  rw [e]
  rfl

/-- The unpacked zero-point fields before the flattening: entry (g, c, p) is field p of the packed word (g, c). -/
theorem zfield_at (x2 : (⟨S32x1376, .i32⟩ : BufTy).Contents (Elt F)) (g : Fin 32) (c : Fin 1376) (p : Fin 8) :
    val_main_v21 (F := F) x2 (ix3 g c p) = nib (x2 (ix2 g c)) p.val := by
  rw [val_main_v21_apply, val_main_v19_apply, val_main_v17_apply, val_main_v15_apply, val_main_v18_apply, val_main_v16_apply,
    shifts_at, val_main_v20_apply, val_main_c_3_apply, shrsi_unit .host .vector]
  have e : idx_main_v15 (idx_main_v17 (ix3 g c p)) = ix2 g c := by
    funext a; match a with | ⟨0, _⟩ => rfl | ⟨1, _⟩ => rfl
  rw [e]
  rfl

/-- The signed weight as an integer, entry (k, n): field k % 8 of the packed word (k / 8, n), minus 8. Row-major position
    k * 11008 + n of the 4096 x 11008 array is position (k / 8, k % 8, n) of the 512 x 8 x 11008 one. -/
theorem wint_at (x1 : (⟨S512x11008, .i32⟩ : BufTy).Contents (Elt F)) (k : Fin 4096) (n : Fin 11008) :
    val_main_v14 (F := F) x1 (ix2 k n) = IntOp.subi (nib (x1 (ix2 (wrd k) n)) (k.val % 8)) 8#32 := by
  rw [val_main_v14_apply, val_main_v12_apply, val_main_v13_apply, val_main_c_2_apply]
  have e : idx_main_v12 (ix2 k n) = ix3 (wrd k) (⟨k.val % 8, Nat.mod_lt _ (by decide)⟩ : Fin 8) n := by
    funext a
    match a with
    | ⟨0, _⟩ => exact Fin.ext (by show (k.val * 11008 + n.val) / 88064 = k.val / 8; have := n.isLt; omega)
    | ⟨1, _⟩ => exact Fin.ext (by show (k.val * 11008 + n.val) / 11008 % 8 = k.val % 8; have := n.isLt; omega)
    | ⟨2, _⟩ => exact Fin.ext (by show (k.val * 11008 + n.val) % 11008 = n.val; have := n.isLt; omega)
  rw [e, wfield_at]

/-- The signed zero point as an integer, entry (g, n): field n % 8 of the packed word (g, n / 8), minus 8. Row-major
    position g * 11008 + n of the 32 x 11008 array is position (g, n / 8, n % 8) of the 32 x 1376 x 8 one. -/
theorem zint_at (x2 : (⟨S32x1376, .i32⟩ : BufTy).Contents (Elt F)) (g : Fin 32) (n : Fin 11008) :
    val_main_v24 (F := F) x2 (ix2 g n) = IntOp.subi (nib (x2 (ix2 g (zwd n))) (n.val % 8)) 8#32 := by
  rw [val_main_v24_apply, val_main_v22_apply, val_main_v23_apply, val_main_c_4_apply]
  have e : idx_main_v22 (ix2 g n) = ix3 g (zwd n) (⟨n.val % 8, Nat.mod_lt _ (by decide)⟩ : Fin 8) := by
    funext a
    match a with
    | ⟨0, _⟩ => exact Fin.ext (by show (g.val * 11008 + n.val) / 11008 = g.val; have := n.isLt; omega)
    | ⟨1, _⟩ => exact Fin.ext (by show (g.val * 11008 + n.val) / 8 % 1376 = n.val / 8; have := n.isLt; omega)
    | ⟨2, _⟩ => exact Fin.ext (by show (g.val * 11008 + n.val) % 8 = n.val % 8; have := n.isLt; omega)
  rw [e, zfield_at]

end Fields

/-- Row k of the flattened weight matrix is row k % 128 of group k / 128, and back: the two regroupings cancel. -/
theorem regroup_weight (k : Fin 4096) (n : Fin 11008) : idx_main_v25 (idx_main_v34 (ix2 k n)) = ix2 k n := by
  funext a
  match a with
  | ⟨0, _⟩ =>
    exact Fin.ext (by
      show (((k.val * 11008 + n.val) / 1409024 * 128 + (k.val * 11008 + n.val) / 11008 % 128) * 11008
        + (k.val * 11008 + n.val) % 11008) / 11008 = k.val
      have := n.isLt; have := k.isLt; omega)
  | ⟨1, _⟩ =>
    exact Fin.ext (by
      show (((k.val * 11008 + n.val) / 1409024 * 128 + (k.val * 11008 + n.val) / 11008 % 128) * 11008
        + (k.val * 11008 + n.val) % 11008) % 11008 = n.val
      have := n.isLt; have := k.isLt; omega)

/-- The scale that meets row k of the flattened weight matrix is the one of group k / 128. -/
theorem regroup_scale (k : Fin 4096) (n : Fin 11008) :
    idx_main_v27 (idx_main_v32 (idx_main_v34 (ix2 k n))) = ix2 (grp k) n := by
  funext a
  match a with
  | ⟨0, _⟩ => exact Fin.ext (by show (k.val * 11008 + n.val) / 1409024 = k.val / 128; have := n.isLt; omega)
  | ⟨1, _⟩ => exact Fin.ext (by show (k.val * 11008 + n.val) % 11008 = n.val; have := n.isLt; omega)

/-- The zero point that meets row k of the flattened weight matrix is the one of group k / 128. -/
theorem regroup_zero (k : Fin 4096) (n : Fin 11008) :
    idx_main_v28 (idx_main_v30 (idx_main_v34 (ix2 k n))) = ix2 (grp k) n := by
  funext a
  match a with
  | ⟨0, _⟩ => exact Fin.ext (by show (k.val * 11008 + n.val) / 1409024 = k.val / 128; have := n.isLt; omega)
  | ⟨1, _⟩ => exact Fin.ext (by show (k.val * 11008 + n.val) % 11008 = n.val; have := n.isLt; omega)

/-- The dequantized weight the reference builds, entry (k, n). -/
theorem weight_at (x1 : (⟨S512x11008, .i32⟩ : BufTy).Contents (Elt Ideal)) (x2 : (⟨S32x1376, .i32⟩ : BufTy).Contents (Elt Ideal))
    (x3 : (⟨S32x11008, .f32⟩ : BufTy).Contents (Elt Ideal)) (k : Fin 4096) (n : Fin 11008) :
    val_main_v34 (F := Ideal) x1 x2 x3 (ix2 k n) = wgt x1 (unpackZeros x2) x3 k n := by
  rw [val_main_v34_apply, val_main_v33_apply, val_main_v32_apply, val_main_v27_apply, val_main_v31_apply, val_main_v26_apply,
    val_main_v25_apply, val_main_v30_apply, val_main_v29_apply, val_main_v28_apply, regroup_weight, regroup_scale, regroup_zero,
    wint_at, zint_at]
  show x3 (ix2 (grp k) n) * (((((IntOp.subi (nib (x1 (ix2 (wrd k) n)) (k.val % 8)) 8#32).toInt : ℤ) : ℝ) : EReal)
    - ((((IntOp.subi (nib (x2 (ix2 (grp k) (zwd n))) (n.val % 8)) 8#32).toInt : ℤ) : ℝ) : EReal)) = _
  rw [fieldVal_int, fieldVal_int]
  rfl

/-- The reference's result is the common result. -/
theorem reference_eq_result (x0 : (⟨S8192x4096, .f32⟩ : BufTy).Contents (Elt Ideal))
    (x1 : (⟨S512x11008, .i32⟩ : BufTy).Contents (Elt Ideal)) (x2 : (⟨S32x1376, .i32⟩ : BufTy).Contents (Elt Ideal))
    (x3 : (⟨S32x11008, .f32⟩ : BufTy).Contents (Elt Ideal)) (x4 : (⟨S11008, .f32⟩ : BufTy).Contents (Elt Ideal)) :
    val_main_v38 (F := Ideal) x0 x1 x2 x3 x4 = result x0 x1 x2 x3 x4 := by
  funext i
  obtain ⟨r, n, rfl⟩ : ∃ (r : Fin 8192) (n : Fin 11008), i = ix2 r n := ⟨i 0, i 1, eq_ix2 i⟩
  rw [val_main_v38_apply, val_main_v35_apply, val_main_v37_apply, val_main_v36_apply]
  show (∑ k : Fin 4096, x0 (lidx_main_v35 (ix2 r n) k) * val_main_v34 (F := Ideal) x1 x2 x3 (ridx_main_v35 (ix2 r n) k))
      + x4 (idx_main_v36 (idx_main_v37 (ix2 r n)))
    = (∑ k : Fin 4096, x0 (ix2 r k) * wgt x1 (unpackZeros x2) x3 k n) + x4 (ix1 n)
  have eb : idx_main_v36 (idx_main_v37 (ix2 r n)) = ix1 n := by
    funext a; match a with | ⟨0, _⟩ => rfl
  rw [eb]
  refine congrArg (· + x4 (ix1 n)) (Finset.sum_congr rfl fun k _ => ?_)
  have el : lidx_main_v35 (ix2 r n) k = ix2 r k := by
    funext a; match a with | ⟨0, _⟩ => rfl | ⟨1, _⟩ => rfl
  have er : ridx_main_v35 (ix2 r n) k = ix2 k n := by
    funext a; match a with | ⟨0, _⟩ => rfl | ⟨1, _⟩ => rfl
  rw [el, er, weight_at]

end Cert.Quant

end
-- ==== Proof.lean ====
/-
  A 4-bit-quantized linear layer: the kernel against its jnp reference, equal over the extended reals.

  Both programs compute, for x : [8192, 4096], packed weights qweight : [512, 11008], packed zero points qzeros : [32, 1376],
  scales : [32, 11008] and bias : [11008],
      out(r, n) = sum over k < 4096 of x(r, k) * (scales(k / 128, n) * (w(k, n) - z(k / 128, n))) + bias(n),
  where w(k, n) is the 4-bit field k % 8 of qweight(k / 8, n) minus 8 and z(g, n) the 4-bit field n % 8 of qzeros(g, n / 8) minus 8
  (the specification: Proof/Spec.lean, over Proof/Nibble.lean).

  The reference unpacks with integer arithmetic (subtracting 8 before the conversion to a real number) and takes one product
  over all of K (Proof/RefSide.lean). The kernel unpacks the zero points on the host and the weights inside the call
  (subtracting 8.0 after the conversion: the same number, since a field is at most 15), works block by block on an 8 x 43 grid
  of 1024 x 256 output blocks, and inside a block takes the product over K in four runs of 1024 added into an accumulator that
  starts at zero; its changes of float format are the identity on exact numbers (Proof/KernelBody.lean: the body's
  arithmetic at an entry; Proof/KernelOut.lean: one run of the body; Proof/KernelHost.lean: the arrays the call is handed;
  Proof/KernelFinal.lean: the whole array). The only laws used to join the two are that addition of extended reals is
  commutative and associative (a sum over 4096 terms is the sum of its four runs) and 0 + a = a; no term is moved across a sum
  and nothing is cancelled, so finiteness of the inputs is never needed. No operation was rewritten when the kernel was
  idealized, so the idealization claim is trivial.
-/
import proofs.«406074_j69647189672510_3_alg».proof.Defs
import proofs.«406074_j69647189672510_3_alg».proof.Proof.Gen.Kernel
import proofs.«406074_j69647189672510_3_alg».proof.Proof.Gen.Kernel.Skeleton
import proofs.«406074_j69647189672510_3_alg».proof.Proof.Gen.Kernel.Launch
import proofs.«406074_j69647189672510_3_alg».proof.Proof.Gen.Kernel.Points
import proofs.«406074_j69647189672510_3_alg».proof.Proof.Gen.Kernel.Frame
import proofs.«406074_j69647189672510_3_alg».proof.Proof.Gen.KernelIdeal
import proofs.«406074_j69647189672510_3_alg».proof.Proof.Gen.KernelIdeal.Skeleton
import proofs.«406074_j69647189672510_3_alg».proof.Proof.Gen.KernelIdeal.Launch
import proofs.«406074_j69647189672510_3_alg».proof.Proof.Gen.KernelIdeal.Points
import proofs.«406074_j69647189672510_3_alg».proof.Proof.Gen.KernelIdeal.Frame
import proofs.«406074_j69647189672510_3_alg».proof.Proof.Gen.ReferenceIdeal
import proofs.«406074_j69647189672510_3_alg».proof.Proof.Gen.Pre_finite_inputs
import proofs.«406074_j69647189672510_3_alg».proof.Proof.Gen.KernelIdeal.Value
import proofs.«406074_j69647189672510_3_alg».proof.Proof.Gen.ReferenceIdeal.Run
import proofs.«406074_j69647189672510_3_alg».proof.Proof.Gen.ReferenceIdeal.Read
import proofs.«406074_j69647189672510_3_alg».proof.Proof.KernelFinal
import proofs.«406074_j69647189672510_3_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in the idealization. -/
theorem preserves : Cert.preserves_Kernel_KernelIdeal := trivial

/-- From memories that agree on the five arguments both programs end with the common result in their result arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.Quant.reference_eq_result,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
